-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x512 : Shape := ⟨3, ![8, 512, 512]⟩
abbrev S8x512x16x512 : Shape := ⟨4, ![8, 512, 16, 512]⟩
abbrev S8x512 : Shape := ⟨2, ![8, 512]⟩
abbrev S2048x512 : Shape := ⟨2, ![2048, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S8x512x512 : S_.BroadcastsInDim S8x512x512 (![] : Fin 0 → Fin S8x512x512.rank)
  reducesTo_S8x512x512_S_d0_1_2 : S8x512x512.ReducesTo [0, 1, 2] S_
  h_S_ : 0 < S_.numel
  bcast_S_S8x512x16x512 : S_.BroadcastsInDim S8x512x16x512 (![] : Fin 0 → Fin S8x512x16x512.rank)
  reducesTo_S8x512x16x512_S_d0_1_2_3 : S8x512x16x512.ReducesTo [0, 1, 2, 3] S_
  bcast_S_S8x512 : S_.BroadcastsInDim S8x512 (![] : Fin 0 → Fin S8x512.rank)
  reducesTo_S8x512_S_d0_1 : S8x512.ReducesTo [0, 1] S_
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S2048x512 .f32) (main_arg5 : FVec F S512 .f32) (main_arg6 : FVec F S512x1 .f32) (main_arg7 : FVec F S1 .f32) (main_v13 : IVec S_ 1) (main_v16 : IVec S8x512 1) : IVec S_ 1 :=
  let main_c_5 : IVec S_ 1 := constantI S_ 1 1#1
  let main_v17 : IVec S_ 1 := (fun x v => Host.reduce IntOp.andi x v reducesTo_S8x512_S_d0_1 h_S_) main_v16 main_c_5
  let main_v18 : IVec S_ 1 := andi main_v13 main_v17
  let main_v19 : FVec F S2048x512 .f32 := Host.absf main_arg4
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1 .f32 := Host.absf main_arg6
  let main_cst_10 : FVec F S_ .f32 := constant S_ .f32 0x7F800000#32
  let main_v30 : FVec F S512x1 .f32 := broadcastInDim S512x1 ![] bcast_S_S512x1 main_cst_10
  let main_v31 : IVec S512x1 1 := cmpf .olt main_v29 main_v30
  let main_c_11 : IVec S_ 1 := constantI S_ 1 1#1
  let main_v32 : IVec S_ 1 := (fun x v => Host.reduce IntOp.andi x v reducesTo_S512x1_S_d0_1 h_S_) main_v31 main_c_11
  let main_v33 : IVec S_ 1 := andi main_v28 main_v32
  fn_part2 (F := F) main_arg7 main_v33

def fn {F : FTy → Type} [FloatOps F] (main_arg0 : FVec F S8x512x512 .f32) (main_arg1 : FVec F S8x512x16x512 .f32) (main_arg2 : FVec F S8x512 .f32) (main_arg3 : FVec F S8x512 .f32) (main_arg4 : FVec F S2048x512 .f32) (main_arg5 : FVec F S512 .f32) (main_arg6 : FVec F S512x1 .f32) (main_arg7 : FVec F S1 .f32) : IVec S_ 1 :=
  let main_v0 : FVec F S8x512x512 .f32 := Host.absf main_arg0
  let main_cst : FVec F S_ .f32 := constant S_ .f32 0x7F800000#32
  let main_v1 : FVec F S8x512x512 .f32 := broadcastInDim S8x512x512 ![] bcast_S_S8x512x512 main_cst
  let main_v2 : IVec S8x512x512 1 := cmpf .olt main_v0 main_v1
  let main_c : IVec S_ 1 := constantI S_ 1 1#1
  let main_v3 : IVec S_ 1 := (fun x v => Host.reduce IntOp.andi x v reducesTo_S8x512x512_S_d0_1_2 h_S_) main_v2 main_c
  let main_v4 : FVec F S8x512x16x512 .f32 := Host.absf main_arg1
  let main_cst_0 : FVec F S_ .f32 := constant S_ .f32 0x7F800000#32
  let main_v5 : FVec F S8x512x16x512 .f32 := broadcastInDim S8x512x16x512 ![] bcast_S_S8x512x16x512 main_cst_0
  let main_v6 : IVec S8x512x16x512 1 := cmpf .olt main_v4 main_v5
  let main_c_1 : IVec S_ 1 := constantI S_ 1 1#1
  let main_v7 : IVec S_ 1 := (fun x v => Host.reduce IntOp.andi x v reducesTo_S8x512x16x512_S_d0_1_2_3 h_S_) main_v6 main_c_1
  let main_v8 : IVec S_ 1 := andi main_v3 main_v7
  let main_v9 : FVec F S8x512 .f32 := Host.absf main_arg2
  let main_cst_2 : FVec F S_ .f32 := constant S_ .f32 0x7F800000#32
  let main_v10 : FVec F S8x512 .f32 := broadcastInDim S8x512 ![] bcast_S_S8x512 main_cst_2
  let main_v11 : IVec S8x512 1 := cmpf .olt main_v9 main_v10
  let main_c_3 : IVec S_ 1 := constantI S_ 1 1#1
  let main_v12 : IVec S_ 1 := (fun x v => Host.reduce IntOp.andi x v reducesTo_S8x512_S_d0_1 h_S_) main_v11 main_c_3
  let main_v13 : IVec S_ 1 := andi main_v8 main_v12
  let main_v14 : FVec F S8x512 .f32 := Host.absf main_arg3
  let main_cst_4 : FVec F S_ .f32 := constant S_ .f32 0x7F800000#32
  let main_v15 : FVec F S8x512 .f32 := broadcastInDim S8x512 ![] bcast_S_S8x512 main_cst_4
  let main_v16 : IVec S8x512 1 := cmpf .olt main_v14 main_v15
  fn_part1 (F := F) main_arg4 main_arg5 main_arg6 main_arg7 main_v13 main_v16
-- ==== Kernel.lean ====
abbrev S8x512x512 : Shape := ⟨3, ![8, 512, 512]⟩
abbrev S8x512x16x512 : Shape := ⟨4, ![8, 512, 16, 512]⟩
abbrev S8x512 : Shape := ⟨2, ![8, 512]⟩
abbrev S2048x512 : Shape := ⟨2, ![2048, 512]⟩
abbrev S512 : Shape := ⟨1, ![512]⟩
abbrev S512x1 : Shape := ⟨2, ![512, 1]⟩
abbrev S1 : Shape := ⟨1, ![1]⟩
abbrev S8x1x512 : Shape := ⟨3, ![8, 1, 512]⟩
abbrev S1x512 : Shape := ⟨2, ![1, 512]⟩
abbrev S1x1 : Shape := ⟨2, ![1, 1]⟩
abbrev S8x1x8192 : Shape := ⟨3, ![8, 1, 8192]⟩
abbrev S1x64x512 : Shape := ⟨3, ![1, 64, 512]⟩
abbrev S1x64x16x512 : Shape := ⟨4, ![1, 64, 16, 512]⟩
abbrev S1x1x512 : Shape := ⟨3, ![1, 1, 512]⟩
abbrev S1x1x1024 : Shape := ⟨3, ![1, 1, 1024]⟩
abbrev S512x512 : Shape := ⟨2, ![512, 512]⟩
abbrev S64x512 : Shape := ⟨2, ![64, 512]⟩
abbrev S64x16x512 : Shape := ⟨3, ![64, 16, 512]⟩
abbrev S1024x512 : Shape := ⟨2, ![1024, 512]⟩
abbrev S64x1x512 : Shape := ⟨3, ![64, 1, 512]⟩
abbrev S1024x1 : Shape := ⟨2, ![1024, 1]⟩
abbrev S64x16 : Shape := ⟨2, ![64, 16]⟩
abbrev S8x8192 : Shape := ⟨2, ![8, 8192]⟩

abbrev nBuf : Space → Nat
  | .hbm => 14
  | .vmem => 14
  | .smem => 0
  | _ => 0

abbrev bufTy : (tb : Table) → Fin (tcTables nBuf tb) → BufTy
  | .hbm, ⟨0, _⟩ => ⟨S8x512x512, .f32⟩
  | .hbm, ⟨1, _⟩ => ⟨S8x512x16x512, .f32⟩
  | .hbm, ⟨2, _⟩ => ⟨S8x512, .f32⟩
  | .hbm, ⟨3, _⟩ => ⟨S8x512, .f32⟩
  | .hbm, ⟨4, _⟩ => ⟨S2048x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S8x1x512, .f32⟩
  | .hbm, ⟨9, _⟩ => ⟨S8x1x512, .f32⟩
  | .hbm, ⟨10, _⟩ => ⟨S1x512, .f32⟩
  | .hbm, ⟨11, _⟩ => ⟨S1x1, .f32⟩
  | .hbm, ⟨12, _⟩ => ⟨S8x1x8192, .f32⟩
  | .hbm, ⟨13, _⟩ => ⟨S8x8192, .f32⟩
  | .local _ .vmem, ⟨0, _⟩ => ⟨S1x64x512, .f32⟩
  | .local _ .vmem, ⟨1, _⟩ => ⟨S1x64x512, .f32⟩
  | .local _ .vmem, ⟨2, _⟩ => ⟨S1x64x16x512, .f32⟩
  | .local _ .vmem, ⟨3, _⟩ => ⟨S1x64x16x512, .f32⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | .local _ .vmem, ⟨7, _⟩ => ⟨S1x1x512, .f32⟩
  | .local _ .vmem, ⟨8, _⟩ => ⟨S2048x512, .f32⟩
  | .local _ .vmem, ⟨9, _⟩ => ⟨S1x512, .f32⟩
  | .local _ .vmem, ⟨10, _⟩ => ⟨S512x1, .f32⟩
  | .local _ .vmem, ⟨11, _⟩ => ⟨S1x1, .f32⟩
  | .local _ .vmem, ⟨12, _⟩ => ⟨S1x1x1024, .f32⟩
  | .local _ .vmem, ⟨13, _⟩ => ⟨S1x1x1024, .f32⟩
  | _, _ => ⟨S8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  shapeCasts_S8x512_S8x1x512 : S8x512.ShapeCasts S8x1x512
  shapeCasts_S512_S1x512 : S512.ShapeCasts S1x512
  shapeCasts_S1_S1x1 : S1.ShapeCasts S1x1
  inb_S2048x512_S2048x512_0_0 : ∀ a, (![0, 0] : Fin 2 → Nat) a + S2048x512.size a ≤ S2048x512.size a
  h_S2048x512 : 0 < S2048x512.numel
  slices_S2048x512_o0_0_S512x512 : S2048x512.Slices ![0, 0] S512x512
  slices_S2048x512_o512_0_S512x512 : S2048x512.Slices ![512, 0] S512x512
  slices_S2048x512_o1024_0_S512x512 : S2048x512.Slices ![1024, 0] S512x512
  slices_S2048x512_o1536_0_S512x512 : S2048x512.Slices ![1536, 0] S512x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  bitsLt_bf16_f32 : FTy.bits .bf16 < FTy.bits .f32
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S64x512 : S1x512.Broadcasts S64x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x64x16x512_S1x64x16x512_0_0_0_0 : ∀ a, (![0, 0, 0, 0] : Fin 4 → Nat) a + S1x64x16x512.size a ≤ S1x64x16x512.size a
  h_S1x64x16x512 : 0 < S1x64x16x512.numel
  shapeCasts_S1x64x16x512_S64x16x512 : S1x64x16x512.ShapeCasts S64x16x512
  shapeCasts_S64x16x512_S1024x512 : S64x16x512.ShapeCasts S1024x512
  shapeCasts_S1024x512_S64x16x512 : S1024x512.ShapeCasts S64x16x512
  shapeCasts_S64x512_S64x1x512 : S64x512.ShapeCasts S64x1x512
  broadcasts_S64x1x512_S64x16x512 : S64x1x512.Broadcasts S64x16x512
  inb_S512x1_S512x1_0_0 : ∀ a, (![0, 0] : Fin 2 → Nat) a + S512x1.size a ≤ S512x1.size a
  h_S512x1 : 0 < S512x1.numel
  shapeCasts_S1024x1_S64x16 : S1024x1.ShapeCasts S64x16
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S64x16_S1x1x1024 : S64x16.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  shapeCasts_S8x1x8192_S8x8192 : S8x1x8192.ShapeCasts S8x8192
  dot_S64x512_S512x512_S64x512_1_0_0_1_n_n_wf : DotDims.WF S64x512 S512x512 S64x512 [1] [0] [0] [1] [] []
  dot_S1x512_S512x512_S1x512_1_0_0_1_n_n_wf : DotDims.WF S1x512 S512x512 S1x512 [1] [0] [0] [1] [] []
  dot_S1024x512_S512x512_S1024x512_1_0_0_1_n_n_wf : DotDims.WF S1024x512 S512x512 S1024x512 [1] [0] [0] [1] [] []
  dot_S1024x512_S512x1_S1024x1_1_0_0_1_n_n_wf : DotDims.WF S1024x512 S512x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x512.size a ≤ S8x512x512.size a
  hwx0_0 : ∀ i : grid0.Coords, EltTy.bits .f32 = 32 ∨ (Rect.block (s := S8x512x512) S1x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x16x512.size a ≤ S8x512x16x512.size a
  hwx0_1 : ∀ i : grid0.Coords, EltTy.bits .f32 = 32 ∨ (Rect.block (s := S8x512x16x512) S1x64x16x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x512.size a
  hwx0_2 : ∀ i : grid0.Coords, EltTy.bits .f32 = 32 ∨ (Rect.block (s := S8x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S8x1x512.size a
  hwx0_3 : ∀ i : grid0.Coords, EltTy.bits .f32 = 32 ∨ (Rect.block (s := S8x1x512) S1x1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S2048x512.size a
  hwx0_4 : ∀ i : grid0.Coords, EltTy.bits .f32 = 32 ∨ (Rect.block (s := S2048x512) S2048x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S512x1.size a
  hwx0_6 : ∀ i : grid0.Coords, EltTy.bits .f32 = 32 ∨ (Rect.block (s := S512x1) S512x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1024.size a ≤ S8x1x8192.size a
  hwx0_8 : ∀ i : grid0.Coords, EltTy.bits .f32 = 32 ∨ (Rect.block (s := S8x1x8192) S1x1x1024.size (cc0_transform_8 i) (hinb0_8 i)).WholeWords (EltTy.packing .f32)

variable [Facts₀]

def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S1x512_S512x512_S1x512_1_0_0_1_n_n : DotDims S1x512 S512x512 S1x512 where
  lhsContracting := [1]
  rhsContracting := [0]
  lhsNonContracting := [0]
  rhsNonContracting := [1]
  lhsBatch := []
  rhsBatch := []
  wf := dot_S1x512_S512x512_S1x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x1_S1024x1_1_0_0_1_n_n : DotDims S1024x512 S512x1 S1024x1 where
  lhsContracting := [1]
  rhsContracting := [0]
  lhsNonContracting := [0]
  rhsNonContracting := [1]
  lhsBatch := []
  rhsBatch := []
  wf := dot_S1024x512_S512x1_S1024x1_1_0_0_1_n_n_wf

abbrev win0_0 : Pipeline.Window sig grid0 :=
  Pipeline.Window.ofSpec (Memref.whole main_arg0) S1x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x16x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x1x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x512x512 : Shape := ⟨3, ![8, 512, 512]⟩
abbrev S8x512x16x512 : Shape := ⟨4, ![8, 512, 16, 512]⟩
abbrev S8x512 : Shape := ⟨2, ![8, 512]⟩
abbrev S2048x512 : Shape := ⟨2, ![2048, 512]⟩
abbrev S512 : Shape := ⟨1, ![512]⟩
abbrev S512x1 : Shape := ⟨2, ![512, 1]⟩
abbrev S1 : Shape := ⟨1, ![1]⟩
abbrev S512x512 : Shape := ⟨2, ![512, 512]⟩
abbrev S8x512x1x512 : Shape := ⟨4, ![8, 512, 1, 512]⟩
abbrev S8x1x1x512 : Shape := ⟨4, ![8, 1, 1, 512]⟩
abbrev S1x1x1x512 : Shape := ⟨4, ![1, 1, 1, 512]⟩
abbrev S_ : Shape := ⟨0, ![]⟩
abbrev S8x512x16x1 : Shape := ⟨4, ![8, 512, 16, 1]⟩
abbrev S8x512x16 : Shape := ⟨3, ![8, 512, 16]⟩
abbrev S8x8192 : Shape := ⟨2, ![8, 8192]⟩

abbrev nBuf : Space → Nat
  | .hbm => 37
  | .vmem => 0
  | .smem => 0
  | _ => 0

abbrev bufTy : (tb : Table) → Fin (tcTables nBuf tb) → BufTy
  | .hbm, ⟨0, _⟩ => ⟨S8x512x512, .f32⟩
  | .hbm, ⟨1, _⟩ => ⟨S8x512x16x512, .f32⟩
  | .hbm, ⟨2, _⟩ => ⟨S8x512, .f32⟩
  | .hbm, ⟨3, _⟩ => ⟨S8x512, .f32⟩
  | .hbm, ⟨4, _⟩ => ⟨S2048x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S8x512x512, .f32⟩
  | .hbm, ⟨13, _⟩ => ⟨S8x512x1x512, .f32⟩
  | .hbm, ⟨14, _⟩ => ⟨S8x512, .f32⟩
  | .hbm, ⟨15, _⟩ => ⟨S8x1x1x512, .f32⟩
  | .hbm, ⟨16, _⟩ => ⟨S8x512x1x512, .f32⟩
  | .hbm, ⟨17, _⟩ => ⟨S8x512x1x512, .f32⟩
  | .hbm, ⟨18, _⟩ => ⟨S8x512, .f32⟩
  | .hbm, ⟨19, _⟩ => ⟨S8x1x1x512, .f32⟩
  | .hbm, ⟨20, _⟩ => ⟨S8x512x1x512, .f32⟩
  | .hbm, ⟨21, _⟩ => ⟨S8x512x1x512, .f32⟩
  | .hbm, ⟨22, _⟩ => ⟨S8x512x16x512, .f32⟩
  | .hbm, ⟨23, _⟩ => ⟨S8x512x16x512, .f32⟩
  | .hbm, ⟨24, _⟩ => ⟨S8x512x16x512, .f32⟩
  | .hbm, ⟨25, _⟩ => ⟨S1x1x1x512, .f32⟩
  | .hbm, ⟨26, _⟩ => ⟨S8x512x16x512, .f32⟩
  | .hbm, ⟨27, _⟩ => ⟨S8x512x16x512, .f32⟩
  | .hbm, ⟨28, _⟩ => ⟨S_, .f32⟩
  | .hbm, ⟨29, _⟩ => ⟨S8x512x16x512, .f32⟩
  | .hbm, ⟨30, _⟩ => ⟨S8x512x16x512, .f32⟩
  | .hbm, ⟨31, _⟩ => ⟨S8x512x16x1, .f32⟩
  | .hbm, ⟨32, _⟩ => ⟨S8x512x16, .f32⟩
  | .hbm, ⟨33, _⟩ => ⟨S_, .f32⟩
  | .hbm, ⟨34, _⟩ => ⟨S8x512x16, .f32⟩
  | .hbm, ⟨35, _⟩ => ⟨S8x512x16, .f32⟩
  | .hbm, ⟨36, _⟩ => ⟨S8x8192, .f32⟩
  | _, _ => ⟨S8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_cst : Ref sig .tc := ⟨.hbm, 28, rfl⟩
abbrev main_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  slices_S2048x512_S512x512_0_0 : S2048x512.Slices ![0, 0] S512x512
  slices_S2048x512_S512x512_512_0 : S2048x512.Slices ![512, 0] S512x512
  slices_S2048x512_S512x512_1024_0 : S2048x512.Slices ![1024, 0] S512x512
  slices_S2048x512_S512x512_1536_0 : S2048x512.Slices ![1536, 0] S512x512
  bcast_S8x512x512_S8x512x1x512_0_1_3 : S8x512x512.BroadcastsInDim S8x512x1x512 (![0, 1, 3] : Fin 3 → Fin S8x512x1x512.rank)
  bcast_S8x512_S8x1x1x512_0_3 : S8x512.BroadcastsInDim S8x1x1x512 (![0, 3] : Fin 2 → Fin S8x1x1x512.rank)
  bcast_S8x1x1x512_S8x512x1x512_0_1_2_3 : S8x1x1x512.BroadcastsInDim S8x512x1x512 (![0, 1, 2, 3] : Fin 4 → Fin S8x512x1x512.rank)
  bcast_S8x512x1x512_S8x512x16x512_0_1_2_3 : S8x512x1x512.BroadcastsInDim S8x512x16x512 (![0, 1, 2, 3] : Fin 4 → Fin S8x512x16x512.rank)
  bcast_S512_S1x1x1x512_3 : S512.BroadcastsInDim S1x1x1x512 (![3] : Fin 1 → Fin S1x1x1x512.rank)
  bcast_S1x1x1x512_S8x512x16x512_0_1_2_3 : S1x1x1x512.BroadcastsInDim S8x512x16x512 (![0, 1, 2, 3] : Fin 4 → Fin S8x512x16x512.rank)
  bcast_S_S8x512x16x512 : S_.BroadcastsInDim S8x512x16x512 (![] : Fin 0 → Fin S8x512x16x512.rank)
  shapeCasts_S8x512x16x1_S8x512x16 : S8x512x16x1.ShapeCasts S8x512x16
  shapeCasts_S1_S_ : S1.ShapeCasts S_
  bcast_S_S8x512x16 : S_.BroadcastsInDim S8x512x16 (![] : Fin 0 → Fin S8x512x16.rank)
  shapeCasts_S8x512x16_S8x8192 : S8x512x16.ShapeCasts S8x8192
  dot_S8x512x512_S512x512_S8x512x512_2_0_01_1_n_n_wf : DotDims.WF S8x512x512 S512x512 S8x512x512 [2] [0] [0, 1] [1] [] []
  dot_S8x512_S512x512_S8x512_1_0_0_1_n_n_wf : DotDims.WF S8x512 S512x512 S8x512 [1] [0] [0] [1] [] []
  dot_S8x512x16x512_S512x512_S8x512x16x512_3_0_012_1_n_n_wf : DotDims.WF S8x512x16x512 S512x512 S8x512x16x512 [3] [0] [0, 1, 2] [1] [] []
  dot_S8x512x16x512_S512x1_S8x512x16x1_3_0_012_1_n_n_wf : DotDims.WF S8x512x16x512 S512x1 S8x512x16x1 [3] [0] [0, 1, 2] [1] [] []

variable [Facts₀]

def dot_S8x512x512_S512x512_S8x512x512_2_0_01_1_n_n : DotDims S8x512x512 S512x512 S8x512x512 where
  lhsContracting := [2]
  rhsContracting := [0]
  lhsNonContracting := [0, 1]
  rhsNonContracting := [1]
  lhsBatch := []
  rhsBatch := []
  wf := dot_S8x512x512_S512x512_S8x512x512_2_0_01_1_n_n_wf
def dot_S8x512_S512x512_S8x512_1_0_0_1_n_n : DotDims S8x512 S512x512 S8x512 where
  lhsContracting := [1]
  rhsContracting := [0]
  lhsNonContracting := [0]
  rhsNonContracting := [1]
  lhsBatch := []
  rhsBatch := []
  wf := dot_S8x512_S512x512_S8x512_1_0_0_1_n_n_wf
def dot_S8x512x16x512_S512x512_S8x512x16x512_3_0_012_1_n_n : DotDims S8x512x16x512 S512x512 S8x512x16x512 where
  lhsContracting := [3]
  rhsContracting := [0]
  lhsNonContracting := [0, 1, 2]
  rhsNonContracting := [1]
  lhsBatch := []
  rhsBatch := []
  wf := dot_S8x512x16x512_S512x512_S8x512x16x512_3_0_012_1_n_n_wf
def dot_S8x512x16x512_S512x1_S8x512x16x1_3_0_012_1_n_n : DotDims S8x512x16x512 S512x1 S8x512x16x1 where
  lhsContracting := [3]
  rhsContracting := [0]
  lhsNonContracting := [0, 1, 2]
  rhsNonContracting := [1]
  lhsBatch := []
  rhsBatch := []
  wf := dot_S8x512x16x512_S512x1_S8x512x16x1_3_0_012_1_n_n_wf

class Facts : Prop extends Facts₀ where

variable [Facts]
-- ==== Proof.ScoreSpec.lean ====
/-
  The scoring network both programs compute, as one function of the eight argument arrays over the extended reals.

  For batch `b`, node `n` and location `k` the first linear layer acts on the concatenation of four rows of
  width 512 — the node's embedding, the graph context of the batch, the location context of the batch, and the
  location's embedding — through a weight of 2048 rows, so its entry `f` is the sum of four inner products, one per
  block of 512 rows of the weight, plus the bias `b1 f`.  The hidden value is clamped below at zero, and the
  score is its inner product with the single column of the second weight plus the scalar bias `b2`.
  The result array has one row per batch; its column `16 * n + k` holds the score of `(n, k)`.
-/
import Idealize.ShloMosaic.PureOps.Ideal
import Idealize.ShloMosaic.Lib.ValueIdx

noncomputable section

open scoped BigOperators

namespace Cert.JointScore

open Idealize.ShloMosaic Idealize.ShloMosaic.ValueIdx

/-- Row `o + d` of the stacked first-layer weight: row `d` of the block of 512 rows that begins at row `o`. -/
abbrev seg (o : Nat) (ho : o + 512 ≤ 2048) (d : Fin 512) : Fin 2048 := ⟨o + d.val, by have := d.isLt; omega⟩

section Spec

variable (node : (⟨3, ![8, 512, 512]⟩ : Shape).Idx → EReal) (loc : (⟨4, ![8, 512, 16, 512]⟩ : Shape).Idx → EReal)
  (graph locg : (⟨2, ![8, 512]⟩ : Shape).Idx → EReal) (W1 : (⟨2, ![2048, 512]⟩ : Shape).Idx → EReal)
  (b1 : (⟨1, ![512]⟩ : Shape).Idx → EReal) (W2 : (⟨2, ![512, 1]⟩ : Shape).Idx → EReal) (b2 : (⟨1, ![1]⟩ : Shape).Idx → EReal)

/-- The inner product of the node's embedding with column `f` of the first block of the weight. -/
def nodeTerm (b : Fin 8) (n : Fin 512) (f : Fin 512) : EReal :=
  ∑ d : Fin 512, node (ix3 b n d) * W1 (ix2 (seg 0 (by omega) d) f)
/-- The inner product of the batch's graph context with column `f` of the second block. -/
def graphTerm (b : Fin 8) (f : Fin 512) : EReal :=
  ∑ d : Fin 512, graph (ix2 b d) * W1 (ix2 (seg 512 (by omega) d) f)
/-- The inner product of the batch's location context with column `f` of the third block. -/
def locgTerm (b : Fin 8) (f : Fin 512) : EReal :=
  ∑ d : Fin 512, locg (ix2 b d) * W1 (ix2 (seg 1024 (by omega) d) f)
/-- The inner product of the location's embedding with column `f` of the fourth block. -/
def locTerm (b : Fin 8) (n : Fin 512) (k : Fin 16) (f : Fin 512) : EReal :=
  ∑ d : Fin 512, loc (ix4 b n k d) * W1 (ix2 (seg 1536 (by omega) d) f)

/-- Entry `f` of the first linear layer at `(b, n, k)`: the four inner products and the bias, added left to right. -/
def hidden (b : Fin 8) (n : Fin 512) (k : Fin 16) (f : Fin 512) : EReal :=
  nodeTerm node W1 b n f + graphTerm graph W1 b f + locgTerm locg W1 b f + locTerm loc W1 b n k f + b1 (ix1 f)

/-- The same entry with the location's inner product added first and the bias before it: addition of extended reals
    is commutative and associative, so the order of the five terms does not matter. -/
theorem hidden_loc_first (b : Fin 8) (n : Fin 512) (k : Fin 16) (f : Fin 512) :
    locTerm loc W1 b n k f + (nodeTerm node W1 b n f + graphTerm graph W1 b f + locgTerm locg W1 b f + b1 (ix1 f))
      = hidden node loc graph locg W1 b1 b n k f := by
  unfold hidden
  rw [add_comm (locTerm loc W1 b n k f), add_right_comm]

/-- The score of location `k` of node `n` in batch `b`. -/
def score (b : Fin 8) (n : Fin 512) (k : Fin 16) : EReal :=
  (∑ f : Fin 512, max (hidden node loc graph locg W1 b1 b n k f) 0 * W2 (ix2 f (0 : Fin 1))) + b2 (ix1 (0 : Fin 1))

/-- The result array: row `b`, column `j` holds the score of node `j / 16`, location `j % 16`. -/
def scores : (⟨2, ![8, 8192]⟩ : Shape).Idx → EReal := fun i =>
  score node loc graph locg W1 b1 W2 b2 ⟨(i 0).val, (i 0).isLt⟩
    ⟨(i 1).val / 16, by have h : (i 1).val < 8192 := (i 1).isLt; omega⟩ ⟨(i 1).val % 16, Nat.mod_lt _ (by norm_num)⟩

/-- The score does not depend on how the node and location numbers are written. -/
theorem score_congr {b b' : Fin 8} {n n' : Fin 512} {k k' : Fin 16} (hb : b.val = b'.val) (hn : n.val = n'.val)
    (hk : k.val = k'.val) :
    score node loc graph locg W1 b1 W2 b2 b n k = score node loc graph locg W1 b1 W2 b2 b' n' k' := by
  obtain rfl := Fin.ext hb; obtain rfl := Fin.ext hn; obtain rfl := Fin.ext hk; rfl

end Spec

end Cert.JointScore

end
-- ==== Proof.ReferenceScore.lean ====
/-
  The reference, read stage by stage at an index, is the scoring network of ScoreSpec.

  Each of its four contractions is one of the four inner products of the specification (the slices of the
  stacked weight read rows 0, 512, 1024 and 1536 onwards), the broadcasts only forget or repeat coordinates, the
  five addends arrive in the specification's own order, the maximum with the zero constant is the clamp, the last
  contraction over the single output column is the inner product with that column, and the two reshapes keep the
  row-major position: column `j` of row `b` of the result is node `j / 16`, location `j % 16`.
-/
import proofs.«180585_j90701119357586_1_alg».proof.Proof.Gen.ReferenceIdeal.Read
import proofs.«180585_j90701119357586_1_alg».proof.Proof.ScoreSpec
import Idealize.ShloMosaic.Lib.Pipeline.Value
import Idealize.ShloMosaic.Lib.ValueIdx
import Idealize.ShloMosaic.PureOps.Ideal.Laws

noncomputable section

open scoped BigOperators

namespace Cert.JointScore.Reference

open Idealize.ShloMosaic Idealize.ShloMosaic.ValueIdx Cert.ReferenceIdeal Cert.ReferenceIdeal.Gen Cert.ReferenceIdeal.Read Cert.JointScore

/-! ## The four inner products -/

/-- The contraction of the node embeddings with the first 512 rows of the weight. -/
theorem node_dot (x0 : (⟨S8x512x512, .f32⟩ : BufTy).Contents (Elt Ideal)) (x4 : (⟨S2048x512, .f32⟩ : BufTy).Contents (Elt Ideal))
    (b : Fin 8) (n f : Fin 512) : val_main_v4 (F := Ideal) x0 x4 (ix3 b n f) = nodeTerm x0 x4 b n f := by
  rw [val_main_v4_apply]
  unfold nodeTerm
  refine Finset.sum_congr rfl fun d _ => ?_
  rw [val_main_v0_apply]
  have el : lidx_main_v4 (ix3 b n f) d = ix3 b n d := funext fun a => Fin.ext (by
    match a with
    | ⟨0, _⟩ => rfl
    | ⟨1, _⟩ => rfl
    | ⟨2, _⟩ => rfl)
  have er : idx_main_v0 (ridx_main_v4 (ix3 b n f) d) = ix2 (seg 0 (by omega) d) f := funext fun a => Fin.ext (by
    match a with
    | ⟨0, _⟩ => show d.val = 0 + d.val; omega
    | ⟨1, _⟩ => rfl)
  rw [el, er]

/-- The contraction of the graph contexts with rows 512 onwards. -/
theorem graph_dot (x2 : (⟨S8x512, .f32⟩ : BufTy).Contents (Elt Ideal)) (x4 : (⟨S2048x512, .f32⟩ : BufTy).Contents (Elt Ideal))
    (b : Fin 8) (f : Fin 512) : val_main_v6 (F := Ideal) x2 x4 (ix2 b f) = graphTerm x2 x4 b f := by
  rw [val_main_v6_apply]
  unfold graphTerm
  refine Finset.sum_congr rfl fun d _ => ?_
  rw [val_main_v1_apply]
  have el : lidx_main_v6 (ix2 b f) d = ix2 b d := funext fun a => Fin.ext (by
    match a with
    | ⟨0, _⟩ => rfl
    | ⟨1, _⟩ => rfl)
  have er : idx_main_v1 (ridx_main_v6 (ix2 b f) d) = ix2 (seg 512 (by omega) d) f := funext fun a => Fin.ext (by
    match a with
    | ⟨0, _⟩ => rfl
    | ⟨1, _⟩ => rfl)
  rw [el, er]

/-- The contraction of the location contexts with rows 1024 onwards. -/
theorem locg_dot (x3 : (⟨S8x512, .f32⟩ : BufTy).Contents (Elt Ideal)) (x4 : (⟨S2048x512, .f32⟩ : BufTy).Contents (Elt Ideal))
    (b : Fin 8) (f : Fin 512) : val_main_v10 (F := Ideal) x3 x4 (ix2 b f) = locgTerm x3 x4 b f := by
  rw [val_main_v10_apply]
  unfold locgTerm
  refine Finset.sum_congr rfl fun d _ => ?_
  rw [val_main_v2_apply]
  have el : lidx_main_v10 (ix2 b f) d = ix2 b d := funext fun a => Fin.ext (by
    match a with
    | ⟨0, _⟩ => rfl
    | ⟨1, _⟩ => rfl)
  have er : idx_main_v2 (ridx_main_v10 (ix2 b f) d) = ix2 (seg 1024 (by omega) d) f := funext fun a => Fin.ext (by
    match a with
    | ⟨0, _⟩ => rfl
    | ⟨1, _⟩ => rfl)
  rw [el, er]

/-- The contraction of the location embeddings with rows 1536 onwards. -/
theorem loc_dot (x1 : (⟨S8x512x16x512, .f32⟩ : BufTy).Contents (Elt Ideal)) (x4 : (⟨S2048x512, .f32⟩ : BufTy).Contents (Elt Ideal))
    (b : Fin 8) (n : Fin 512) (k : Fin 16) (f : Fin 512) :
    val_main_v14 (F := Ideal) x1 x4 (ix4 b n k f) = locTerm x1 x4 b n k f := by
  rw [val_main_v14_apply]
  unfold locTerm
  refine Finset.sum_congr rfl fun d _ => ?_
  rw [val_main_v3_apply]
  have el : lidx_main_v14 (ix4 b n k f) d = ix4 b n k d := funext fun a => Fin.ext (by
    match a with
    | ⟨0, _⟩ => rfl
    | ⟨1, _⟩ => rfl
    | ⟨2, _⟩ => rfl
    | ⟨3, _⟩ => rfl)
  have er : idx_main_v3 (ridx_main_v14 (ix4 b n k f) d) = ix2 (seg 1536 (by omega) d) f := funext fun a => Fin.ext (by
    match a with
    | ⟨0, _⟩ => rfl
    | ⟨1, _⟩ => rfl)
  rw [el, er]

/-! ## The first layer -/

/-- The sum of the five broadcast addends at `(b, n, k, f)` is the specification's hidden entry. -/
theorem hidden_eq (x0 : (⟨S8x512x512, .f32⟩ : BufTy).Contents (Elt Ideal)) (x1 : (⟨S8x512x16x512, .f32⟩ : BufTy).Contents (Elt Ideal))
    (x2 x3 : (⟨S8x512, .f32⟩ : BufTy).Contents (Elt Ideal)) (x4 : (⟨S2048x512, .f32⟩ : BufTy).Contents (Elt Ideal))
    (x5 : (⟨S512, .f32⟩ : BufTy).Contents (Elt Ideal)) (b : Fin 8) (n : Fin 512) (k : Fin 16) (f : Fin 512) :
    val_main_v19 (F := Ideal) x0 x1 x2 x3 x4 x5 (ix4 b n k f) = hidden x0 x1 x2 x3 x4 x5 b n k f := by
  have e15 : idx_main_v15 (ix4 b n k f) = ix4 b n (0 : Fin 1) f := funext fun a => Fin.ext (by
    match a with
    | ⟨0, _⟩ => rfl
    | ⟨1, _⟩ => rfl
    | ⟨2, _⟩ => rfl
    | ⟨3, _⟩ => rfl)
  have e5 : idx_main_v5 (ix4 b n (0 : Fin 1) f) = ix3 b n f := funext fun a => Fin.ext (by
    match a with
    | ⟨0, _⟩ => rfl
    | ⟨1, _⟩ => rfl
    | ⟨2, _⟩ => rfl)
  have e8 : idx_main_v7 (idx_main_v8 (ix4 b n (0 : Fin 1) f)) = ix2 b f := funext fun a => Fin.ext (by
    match a with
    | ⟨0, _⟩ => rfl
    | ⟨1, _⟩ => rfl)
  have e12 : idx_main_v11 (idx_main_v12 (ix4 b n (0 : Fin 1) f)) = ix2 b f := funext fun a => Fin.ext (by
    match a with
    | ⟨0, _⟩ => rfl
    | ⟨1, _⟩ => rfl)
  have e18 : idx_main_v17 (idx_main_v18 (ix4 b n k f)) = ix1 f := funext fun a => Fin.ext (by
    match a with
    | ⟨0, _⟩ => rfl)
  rw [val_main_v19_apply, val_main_v16_apply, val_main_v15_apply, e15, val_main_v13_apply, val_main_v9_apply,
    val_main_v5_apply, e5, node_dot, val_main_v8_apply, val_main_v7_apply, e8, graph_dot,
    val_main_v12_apply, val_main_v11_apply, e12, locg_dot, loc_dot, val_main_v18_apply, val_main_v17_apply, e18]
  rfl

/-! ## The second layer and the layout of the result -/

/-- The reshape of the one-element bias to a scalar reads its one element. -/
theorem bias2_read (x7 : (⟨S1, .f32⟩ : BufTy).Contents (Elt Ideal)) (j : S_.Idx) :
    val_main_v23 (F := Ideal) x7 j = x7 (ix1 (0 : Fin 1)) := by
  unfold val_main_v23
  refine shapeCast_apply x7 shapeCasts_S1_S_ j (ix1 (0 : Fin 1)) ?_
  rw [Shape.rowMajor_val_one]
  have h := (S_.rowMajor j).isLt
  have h1 : S_.numel = 1 := Shape.numel_eq_one (fun a => a.elim0)
  show (0 : Nat) = _
  omega

/-- The score at `(b, n, k)` before the final reshape. -/
theorem score_eq (x0 : (⟨S8x512x512, .f32⟩ : BufTy).Contents (Elt Ideal)) (x1 : (⟨S8x512x16x512, .f32⟩ : BufTy).Contents (Elt Ideal)) (x2 x3 : (⟨S8x512, .f32⟩ : BufTy).Contents (Elt Ideal)) (x4 : (⟨S2048x512, .f32⟩ : BufTy).Contents (Elt Ideal)) (x5 : (⟨S512, .f32⟩ : BufTy).Contents (Elt Ideal)) (x6 : (⟨S512x1, .f32⟩ : BufTy).Contents (Elt Ideal)) (x7 : (⟨S1, .f32⟩ : BufTy).Contents (Elt Ideal))
    (b : Fin 8) (n : Fin 512) (k : Fin 16) :
    val_main_v25 (F := Ideal) x0 x1 x2 x3 x4 x5 x6 x7 (ix3 b n k) = score x0 x1 x2 x3 x4 x5 x6 x7 b n k := by
  have e22 : idx_main_v22 (ix3 b n k) = ix4 b n k (0 : Fin 1) := funext fun a => Fin.ext (by
    have hb : b.val < 8 := b.isLt
    have hn : n.val < 512 := n.isLt
    have hk : k.val < 16 := k.isLt
    match a with
    | ⟨0, _⟩ => show ((b.val * 512 + n.val) * 16 + k.val) / 8192 = b.val; omega
    | ⟨1, _⟩ => show ((b.val * 512 + n.val) * 16 + k.val) / 16 % 512 = n.val; omega
    | ⟨2, _⟩ => show ((b.val * 512 + n.val) * 16 + k.val) / 1 % 16 = k.val; omega
    | ⟨3, _⟩ => rfl)
  rw [val_main_v25_apply, val_main_v22_apply, e22, val_main_v21_apply, val_main_v24_apply, bias2_read, Ideal.addf_def]
  unfold score
  refine congrArg₂ (· + ·) (Finset.sum_congr rfl fun f _ => ?_) rfl
  have el : lidx_main_v21 (ix4 b n k (0 : Fin 1)) f = ix4 b n k f := funext fun a => Fin.ext (by
    match a with
    | ⟨0, _⟩ => rfl
    | ⟨1, _⟩ => rfl
    | ⟨2, _⟩ => rfl
    | ⟨3, _⟩ => rfl)
  have er : ridx_main_v21 (ix4 b n k (0 : Fin 1)) f = ix2 f (0 : Fin 1) := funext fun a => Fin.ext (by
    match a with
    | ⟨0, _⟩ => rfl
    | ⟨1, _⟩ => rfl)
  rw [el, er, val_main_v20_apply, hidden_eq, val_main_call0_v0_apply, val_main_call0_cst_apply,
    Ideal.maximumf_def, Ideal.ofBits_def, Ideal.ofBits_zero_f32]

/-- THE REFERENCE'S RESULT is the array of scores. -/
theorem scores_eq (x0 : (⟨S8x512x512, .f32⟩ : BufTy).Contents (Elt Ideal)) (x1 : (⟨S8x512x16x512, .f32⟩ : BufTy).Contents (Elt Ideal)) (x2 x3 : (⟨S8x512, .f32⟩ : BufTy).Contents (Elt Ideal)) (x4 : (⟨S2048x512, .f32⟩ : BufTy).Contents (Elt Ideal)) (x5 : (⟨S512, .f32⟩ : BufTy).Contents (Elt Ideal)) (x6 : (⟨S512x1, .f32⟩ : BufTy).Contents (Elt Ideal)) (x7 : (⟨S1, .f32⟩ : BufTy).Contents (Elt Ideal)) :
    val_main_v26 (F := Ideal) x0 x1 x2 x3 x4 x5 x6 x7 = scores x0 x1 x2 x3 x4 x5 x6 x7 := by
  funext i
  obtain ⟨b, j, rfl⟩ : ∃ (b : Fin 8) (j : Fin 8192), i = ix2 b j := ⟨i 0, i 1, eq_ix2 i⟩
  have e26 : idx_main_v26 (ix2 b j) = ix3 b ⟨j.val / 16, by have := j.isLt; omega⟩ ⟨j.val % 16, Nat.mod_lt _ (by norm_num)⟩ :=
    funext fun a => Fin.ext (by
      have hb : b.val < 8 := b.isLt
      have hj : j.val < 8192 := j.isLt
      match a with
      | ⟨0, _⟩ => show (b.val * 8192 + j.val) / 8192 = b.val; omega
      | ⟨1, _⟩ => show (b.val * 8192 + j.val) / 16 % 512 = j.val / 16; omega
      | ⟨2, _⟩ => show (b.val * 8192 + j.val) % 16 = j.val % 16; omega)
  rw [val_main_v26_apply, e26, score_eq]
  exact score_congr x0 x1 x2 x3 x4 x5 x6 x7 rfl rfl rfl

end Cert.JointScore.Reference

end
-- ==== Proof.LibPlainMatmul.lean ====
/-
  A plain matrix product read at an entry, over the extended reals.

  For the dimension numbers of an ordinary product of an `M × K` matrix with a `K × N` matrix (contract the left
  operand's second axis with the right operand's first, no batch axes), the product accumulated into the zero matrix
  has at row `r`, column `c` the value `∑ d, L (r, d) * R (d, c)`, with `d` running over `Fin K`.  The
  general reading of a product at the ideal instance sums over the contraction index of the dimension numbers;
  here that index has one axis of extent `K`, and the two operand positions it determines are `(r, d)` and
  `(d, c)`.  Stated for every `M`, `K`, `N` and every pair of operand formats.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable (M K N : Nat)

/-- The left operand's row is the result's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column is the contraction index. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction index. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the result's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- THE PRODUCT AT AN ENTRY: into the zero accumulator, entry `(r, c)` is the sum over `d : Fin K` of
    `L (r, d) * R (d, c)`. -/
theorem matmul_zero_apply {φ₁ φ₂ : FTy} (prec : Option ContractPrecision) (L : FVec Ideal ⟨2, ![M, K]⟩ φ₁)
    (R : FVec Ideal ⟨2, ![K, N]⟩ φ₂) (r : Fin M) (c : Fin N) :
    matmul (DotDims.plain M K N) prec L R (constant ⟨2, ![M, N]⟩ .f32 0x00000000#32) (ix2 r c)
      = ∑ d : Fin K, L (ix2 r d) * R (ix2 d c) := by
  simp only [matmul]
  rw [Ideal.matmul_constant_zero_apply, ← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 r c) ((contrEquiv1 (DotDims.plain M K N) K rfl rfl).symm d) = ix2 r d :=
    funext fun a => Fin.ext (by
      match a with
      | ⟨0, _⟩ => exact lhs_row M K N _ _
      | ⟨1, _⟩ => exact (lhs_col M K N _ _).trans hd)
  have er : (DotDims.plain M K N).rhsIdx (ix2 r c) ((contrEquiv1 (DotDims.plain M K N) K rfl rfl).symm d) = ix2 d c :=
    funext fun a => Fin.ext (by
      match a with
      | ⟨0, _⟩ => exact (rhs_row M K N _ _).trans hd
      | ⟨1, _⟩ => exact rhs_col M K N _ _)
  rw [el, er]

end Idealize.ShloMosaic.PlainMatmul

end
-- ==== Proof.KernelBlock.lean ====
/-
  What the kernel body stores at one grid point, read at an entry of the stored block.

  The body works on a tile of 64 nodes.  It multiplies the tile's 1024 location embeddings (64 nodes by 16
  locations, flattened row-major) by the fourth block of 512 rows of the stacked weight; it multiplies the 64 node
  embeddings by the first block, and the one graph-context row and the one location-context row of the batch by the
  second and third blocks, adds those three products (the two single rows repeated down the tile) and the bias row,
  and repeats the sum over the 16 locations; it adds the two, clamps at zero, multiplies by the one column of the
  second weight, adds the scalar bias, and stores the 1024 results as one row.  A change of float format is the
  identity on the extended reals and every product here starts from the zero accumulator, so entry `16 * nl + k`
  of the stored row is the score of location `k` of the tile's node `nl`, whenever the loaded blocks hold the
  corresponding rows of the arguments.
-/
import proofs.«180585_j90701119357586_1_alg».proof.Proof.Gen.KernelIdeal.Skeleton
import proofs.«180585_j90701119357586_1_alg».proof.Proof.ScoreSpec
import proofs.«180585_j90701119357586_1_alg».proof.Proof.LibPlainMatmul
import Idealize.ShloMosaic.Lib.Pipeline.Value
import Idealize.ShloMosaic.Lib.ValueIdx
import Idealize.ShloMosaic.PureOps.Ideal.Laws

noncomputable section

open scoped BigOperators

namespace Cert.JointScore.Block

open Idealize.ShloMosaic Idealize.ShloMosaic.ValueIdx Cert.KernelIdeal Cert.KernelIdeal.Gen Cert.JointScore
open Idealize.ShloMosaic.PlainMatmul (matmul_zero_apply)

/-! ## The four products are plain matrix products -/

theorem dot_node : dot_S64x512_S512x512_S64x512_1_0_0_1_n_n = DotDims.plain 64 512 512 := rfl
theorem dot_ctx : dot_S1x512_S512x512_S1x512_1_0_0_1_n_n = DotDims.plain 1 512 512 := rfl
theorem dot_loc : dot_S1024x512_S512x512_S1024x512_1_0_0_1_n_n = DotDims.plain 1024 512 512 := rfl
theorem dot_out : dot_S1024x512_S512x1_S1024x1_1_0_0_1_n_n = DotDims.plain 1024 512 1 := rfl

/-- Row `d` of the block of the weight that begins at row `o`, column `f`: the slice read at `(d, f)`. -/
theorem weight_slice (x4 : Vec Ideal S2048x512 .f32) (o : Nat) (ho : o + 512 ≤ 2048) (h : S2048x512.Slices ![o, 0] S512x512)
    (d f : Fin 512) : extractStridedSlice S512x512 ![o, 0] x4 h (ix2 d f) = x4 (ix2 (seg o ho d) f) :=
  extractStridedSlice_apply ![o, 0] x4 h (ix2 d f) (ix2 (seg o ho d) f) (fun a => match a with
    | ⟨0, _⟩ => rfl
    | ⟨1, _⟩ => by show f.val = 0 + f.val; omega)

/-- A single row repeated down the 64 rows of the tile reads the row. -/
theorem row_repeat (v : FVec Ideal S1x512 .f32) (h : S1x512.Broadcasts S64x512) (nl : Fin 64) (f : Fin 512) :
    broadcastTo S64x512 v h (ix2 nl f) = v (ix2 (0 : Fin 1) f) :=
  broadcastTo_apply v h (ix2 nl f) (ix2 (0 : Fin 1) f) (fun a => match a with
    | ⟨0, _⟩ => by show (0 : Nat) = if (1 : Nat) = 1 then 0 else nl.val; rw [if_pos rfl]
    | ⟨1, _⟩ => by show f.val = if (512 : Nat) = 1 then 0 else f.val; rw [if_neg (by decide)])

/-- A context row (one row of a `[1, 1, 512]` block) times a block of the weight. -/
theorem ctx_product (x : Vec Ideal S1x1x512 .f32) (x4 : Vec Ideal S2048x512 .f32) (o : Nat) (ho : o + 512 ≤ 2048)
    (hc : S1x1x512.ShapeCasts S1x512) (hs : S2048x512.Slices ![o, 0] S512x512) (f : Fin 512) :
    matmul (F := Ideal) dot_S1x512_S512x512_S1x512_1_0_0_1_n_n none
        (truncf (F := Ideal) .bf16 (shapeCast S1x512 x hc : FVec Ideal S1x512 .f32) bitsLt_bf16_f32)
        (truncf (F := Ideal) .bf16 (extractStridedSlice S512x512 ![o, 0] x4 hs : FVec Ideal S512x512 .f32) bitsLt_bf16_f32)
        (constant S1x512 .f32 0x00000000#32) (ix2 (0 : Fin 1) f)
      = ∑ d : Fin 512, x (ix3 (0 : Fin 1) (0 : Fin 1) d) * x4 (ix2 (seg o ho d) f) := by
  rw [dot_ctx]
  refine (matmul_zero_apply 1 512 512 none _ _ (0 : Fin 1) f).trans ?_
  refine Finset.sum_congr rfl fun d _ => congrArg₂ (· * ·) ?_ (weight_slice x4 o ho hs d f)
  exact shapeCast_apply x hc (ix2 (0 : Fin 1) d) (ix3 (0 : Fin 1) (0 : Fin 1) d) (by
    rw [Shape.rowMajor_val_three, Shape.rowMajor_val_two]
    show (0 * 1 + 0) * 512 + d.val = 0 * 512 + d.val
    omega)

/-! ## The three payloads at an index -/

/-- The locations' product: row `16 * nl + k` of the flattened tile against the fourth block of the weight. -/
theorem loc_payload (x4 : Vec Ideal S2048x512 .f32) (x1 : Vec Ideal S1x64x16x512 .f32) (nl : Fin 64) (k : Fin 16) (f : Fin 512) :
    k0_pay2 x4 x1 (ix3 nl k f) = ∑ d : Fin 512, x1 (ix4 (0 : Fin 1) nl k d) * x4 (ix2 (seg 1536 (by omega) d) f) := by
  have hnl : nl.val < 64 := nl.isLt
  have hk : k.val < 16 := k.isLt
  unfold k0_pay2
  refine (shapeCast_apply _ _ (ix3 nl k f) (ix2 (⟨nl.val * 16 + k.val, by omega⟩ : Fin 1024) f) ?_).trans ?_
  · rw [Shape.rowMajor_val_two, Shape.rowMajor_val_three]; rfl
  rw [dot_loc]
  refine (matmul_zero_apply 1024 512 512 none _ _ _ f).trans ?_
  refine Finset.sum_congr rfl fun d _ => congrArg₂ (· * ·) ?_ (weight_slice x4 1536 (by omega) slices_S2048x512_o1536_0_S512x512 d f)
  refine (shapeCast_apply _ _ (ix2 (⟨nl.val * 16 + k.val, by omega⟩ : Fin 1024) d) (ix3 nl k d) ?_).trans ?_
  · rw [Shape.rowMajor_val_three, Shape.rowMajor_val_two]; rfl
  exact shapeCast_apply x1 _ (ix3 nl k d) (ix4 (0 : Fin 1) nl k d) (by
    rw [Shape.rowMajor_val_four, Shape.rowMajor_val_three]
    show ((0 * 64 + nl.val) * 16 + k.val) * 512 + d.val = (nl.val * 16 + k.val) * 512 + d.val
    omega)

/-- The part shared by the 16 locations of a node: three products and the bias row, added in the body's order. -/
theorem base_payload (x4 : Vec Ideal S2048x512 .f32) (x0 : Vec Ideal S1x64x512 .f32) (x2 x3 : Vec Ideal S1x1x512 .f32)
    (x5 : Vec Ideal S1x512 .f32) (nl : Fin 64) (k : Fin 16) (f : Fin 512) :
    k0_pay3 x4 x0 x2 x3 x5 (ix3 nl k f)
      = (∑ d : Fin 512, x0 (ix3 (0 : Fin 1) nl d) * x4 (ix2 (seg 0 (by omega) d) f))
        + (∑ d : Fin 512, x2 (ix3 (0 : Fin 1) (0 : Fin 1) d) * x4 (ix2 (seg 512 (by omega) d) f))
        + (∑ d : Fin 512, x3 (ix3 (0 : Fin 1) (0 : Fin 1) d) * x4 (ix2 (seg 1024 (by omega) d) f))
        + x5 (ix2 (0 : Fin 1) f) := by
  unfold k0_pay3
  refine (broadcastTo_apply _ _ (ix3 nl k f) (ix3 nl (0 : Fin 1) f) (fun a => match a with
    | ⟨0, _⟩ => by show nl.val = if (64 : Nat) = 1 then 0 else nl.val; rw [if_neg (by decide)]
    | ⟨1, _⟩ => by show (0 : Nat) = if (1 : Nat) = 1 then 0 else k.val; rw [if_pos rfl]
    | ⟨2, _⟩ => by show f.val = if (512 : Nat) = 1 then 0 else f.val; rw [if_neg (by decide)])).trans ?_
  refine (shapeCast_apply _ _ (ix3 nl (0 : Fin 1) f) (ix2 nl f) ?_).trans ?_
  · rw [Shape.rowMajor_val_two, Shape.rowMajor_val_three]
    show nl.val * 512 + f.val = (nl.val * 1 + 0) * 512 + f.val
    omega
  rw [addf_apply, addf_apply, addf_apply]
  refine congrArg₂ (· + ·) (congrArg₂ (· + ·) (congrArg₂ (· + ·) ?_ ?_) ?_) ?_
  · rw [dot_node]
    refine (matmul_zero_apply 64 512 512 none _ _ nl f).trans ?_
    refine Finset.sum_congr rfl fun d _ => congrArg₂ (· * ·) ?_ (weight_slice x4 0 (by omega) slices_S2048x512_o0_0_S512x512 d f)
    exact shapeCast_apply x0 _ (ix2 nl d) (ix3 (0 : Fin 1) nl d) (by
      rw [Shape.rowMajor_val_three, Shape.rowMajor_val_two]
      show (0 * 64 + nl.val) * 512 + d.val = nl.val * 512 + d.val
      omega)
  · exact (row_repeat _ _ nl f).trans (ctx_product x2 x4 512 (by omega) shapeCasts_S1x1x512_S1x512 slices_S2048x512_o512_0_S512x512 f)
  · exact (row_repeat _ _ nl f).trans (ctx_product x3 x4 1024 (by omega) shapeCasts_S1x1x512_S1x512 slices_S2048x512_o1024_0_S512x512 f)
  · exact (row_repeat _ _ nl f).trans (congrFun (shapeCast_self x5 _) _)

/-- The stored row at entry `16 * nl + k`: the clamp of the sum of the two parts, against the output column, plus the
    scalar bias. -/
theorem score_payload (v34 v36 : FVec Ideal S64x16x512 .f32) (v42 : Vec Ideal S512x1 .f32) (v46 : Vec Ideal S1x1 .f32)
    (nl : Fin 64) (k : Fin 16) (q : Fin 1024) (hq : q.val = nl.val * 16 + k.val) :
    k0_pay1 v34 v36 v42 v46 (ix3 (0 : Fin 1) (0 : Fin 1) q)
      = (∑ f : Fin 512, max (v34 (ix3 nl k f) + v36 (ix3 nl k f)) 0 * v42 (ix2 f (0 : Fin 1)))
        + v46 (ix2 (0 : Fin 1) (0 : Fin 1)) := by
  unfold k0_pay1
  refine (shapeCast_apply _ _ (ix3 (0 : Fin 1) (0 : Fin 1) q) (ix2 nl k) ?_).trans ?_
  · rw [Shape.rowMajor_val_two, Shape.rowMajor_val_three]
    show nl.val * 16 + k.val = (0 * 1 + 0) * 1024 + q.val
    omega
  rw [addf_apply]
  refine congrArg₂ (· + ·) ?_ ?_
  · refine (shapeCast_apply _ _ (ix2 nl k) (ix2 q (0 : Fin 1)) ?_).trans ?_
    · rw [Shape.rowMajor_val_two, Shape.rowMajor_val_two]
      show q.val * 1 + 0 = nl.val * 16 + k.val
      omega
    rw [dot_out]
    refine (matmul_zero_apply 1024 512 1 none _ _ q (0 : Fin 1)).trans ?_
    refine Finset.sum_congr rfl fun f _ => congrArg₂ (· * ·) ?_ rfl
    refine (shapeCast_apply _ _ (ix2 q f) (ix3 nl k f) ?_).trans ?_
    · rw [Shape.rowMajor_val_three, Shape.rowMajor_val_two]
      show (nl.val * 16 + k.val) * 512 + f.val = q.val * 512 + f.val
      omega
    show max (v34 (ix3 nl k f) + v36 (ix3 nl k f)) (Ideal.ofBits .f32 0x00000000#32) = _
    rw [Ideal.ofBits_zero_f32]
  · show v46 _ = v46 _
    exact congrArg v46 (funext fun a => Fin.ext (by
      match a with
      | ⟨0, _⟩ => rfl
      | ⟨1, _⟩ => rfl))

/-! ## The stored entry is a score -/

/-- If the loaded blocks hold the rows of the arguments that belong to batch `b`, node `n` (the tile's node `nl`) and
    location `k`, the stored row's entry `16 * nl + k` is the score of `(b, n, k)`. -/
theorem payload_score (x0 : Vec Ideal S1x64x512 .f32) (x1 : Vec Ideal S1x64x16x512 .f32) (x2 x3 : Vec Ideal S1x1x512 .f32)
    (x4 : Vec Ideal S2048x512 .f32) (x5 : Vec Ideal S1x512 .f32) (x6 : Vec Ideal S512x1 .f32) (x7 : Vec Ideal S1x1 .f32)
    (node : (⟨3, ![8, 512, 512]⟩ : Shape).Idx → EReal) (loc : (⟨4, ![8, 512, 16, 512]⟩ : Shape).Idx → EReal)
    (graph locg : (⟨2, ![8, 512]⟩ : Shape).Idx → EReal) (W1 : (⟨2, ![2048, 512]⟩ : Shape).Idx → EReal)
    (b1 : (⟨1, ![512]⟩ : Shape).Idx → EReal) (W2 : (⟨2, ![512, 1]⟩ : Shape).Idx → EReal) (b2 : (⟨1, ![1]⟩ : Shape).Idx → EReal)
    (b : Fin 8) (n : Fin 512) (nl : Fin 64) (k : Fin 16) (q : Fin 1024) (hq : q.val = nl.val * 16 + k.val)
    (h0 : ∀ d : Fin 512, x0 (ix3 (0 : Fin 1) nl d) = node (ix3 b n d))
    (h1 : ∀ d : Fin 512, x1 (ix4 (0 : Fin 1) nl k d) = loc (ix4 b n k d))
    (h2 : ∀ d : Fin 512, x2 (ix3 (0 : Fin 1) (0 : Fin 1) d) = graph (ix2 b d))
    (h3 : ∀ d : Fin 512, x3 (ix3 (0 : Fin 1) (0 : Fin 1) d) = locg (ix2 b d))
    (h4 : ∀ i, x4 i = W1 i)
    (h5 : ∀ f : Fin 512, x5 (ix2 (0 : Fin 1) f) = b1 (ix1 f))
    (h6 : ∀ f : Fin 512, x6 (ix2 f (0 : Fin 1)) = W2 (ix2 f (0 : Fin 1)))
    (h7 : x7 (ix2 (0 : Fin 1) (0 : Fin 1)) = b2 (ix1 (0 : Fin 1))) :
    k0_pay1 (k0_pay2 x4 x1) (k0_pay3 x4 x0 x2 x3 x5) x6 x7 (ix3 (0 : Fin 1) (0 : Fin 1) q)
      = score node loc graph locg W1 b1 W2 b2 b n k := by
  rw [score_payload _ _ _ _ nl k q hq]
  unfold score
  refine congrArg₂ (· + ·) (Finset.sum_congr rfl fun f _ => ?_) h7
  rw [loc_payload, base_payload, h6 f, ← hidden_loc_first]
  unfold locTerm nodeTerm graphTerm locgTerm
  simp only [h0, h1, h2, h3, h4, h5]

end Cert.JointScore.Block

end
-- ==== Proof.KernelScores.lean ====
/-
  The kernel's run: the result buffer ends holding the array of scores.

  The grid has 8 × 8 points; point `t` works on batch `t / 8` and on the tile of 64 nodes number `t % 8`.  Its
  node and location windows are the matching blocks of the two embedding arrays, its two context windows the batch's
  row of each context array (reshaped to `[8, 1, 512]` before the call), the four parameter windows the whole
  parameter arrays (the two biases reshaped to `[1, 512]` and `[1, 1]`), and its output window block
  `(t / 8, 0, t % 8)` of the `[8, 1, 8192]` output.  By KernelBlock, entry `q` of the row it stores is the score of
  batch `t / 8`, node `64 * (t % 8) + q / 16`, location `q % 16`; the output's column is `1024 * (t % 8) + q`, whose
  quotient and remainder by 16 are that node and that location.  The 64 output blocks tile the output, so after the
  run it is the array of scores, and the reshape that follows the call keeps each row.
-/
import proofs.«180585_j90701119357586_1_alg».proof.Proof.Gen.KernelIdeal.Frame
import proofs.«180585_j90701119357586_1_alg».proof.Proof.KernelBlock
import Idealize.ShloMosaic.Lib.Pipeline.Value
import Idealize.ShloMosaic.Lib.ValueIdx
import Idealize.ShloMosaic.Lib.StableHlo.Run

set_option maxRecDepth 16384

noncomputable section

namespace Cert.JointScore.KernelRun

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.JointScore Cert.JointScore.Block

variable (m : (ℓ : Loc nD τ sig) → Buf (Elt Ideal) ℓ) (ρ : Dev nD → PrngReg)

/-- The score of `(b, n, k)` over the eight argument arrays of core `c`. -/
abbrev argScore (c : Dev nD) (b : Fin 8) (n : Fin 512) (k : Fin 16) : EReal :=
  score (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b n k

/-- The pallas_call's output array: row `b`, column `j` of its one middle slice holds the score of node `j / 16`,
    location `j % 16`. -/
def outArr (c : Dev nD) : S8x1x8192.Idx → EReal := fun i =>
  argScore m c ⟨(i 0).val, (i 0).isLt⟩ ⟨(i 2).val / 16, by have h : (i 2).val < 8192 := (i 2).isLt; omega⟩
    ⟨(i 2).val % 16, Nat.mod_lt _ (by norm_num)⟩

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The index maps over the grid -/

theorem idx_node : ∀ t : Fin cfg0.N, win0_0.index t (0 : Fin 3) = t.val / 8 ∧ win0_0.index t (1 : Fin 3) = t.val % 8
    ∧ win0_0.index t (2 : Fin 3) = 0 :=
  (by decide +kernel : ∀ t : Fin grid0.N, _)
theorem idx_loc : ∀ t : Fin cfg0.N, win0_1.index t (0 : Fin 4) = t.val / 8 ∧ win0_1.index t (1 : Fin 4) = t.val % 8
    ∧ win0_1.index t (2 : Fin 4) = 0 ∧ win0_1.index t (3 : Fin 4) = 0 :=
  (by decide +kernel : ∀ t : Fin grid0.N, _)
theorem idx_graph : ∀ t : Fin cfg0.N, win0_2.index t (0 : Fin 3) = t.val / 8 ∧ win0_2.index t (1 : Fin 3) = 0
    ∧ win0_2.index t (2 : Fin 3) = 0 :=
  (by decide +kernel : ∀ t : Fin grid0.N, _)
theorem idx_locg : ∀ t : Fin cfg0.N, win0_3.index t (0 : Fin 3) = t.val / 8 ∧ win0_3.index t (1 : Fin 3) = 0
    ∧ win0_3.index t (2 : Fin 3) = 0 :=
  (by decide +kernel : ∀ t : Fin grid0.N, _)
theorem idx_params : ∀ t : Fin cfg0.N, win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)
theorem idx_out : ∀ t : Fin cfg0.N, win0_8.index t (0 : Fin 3) = t.val / 8 ∧ win0_8.index t (1 : Fin 3) = 0
    ∧ win0_8.index t (2 : Fin 3) = t.val % 8 :=
  (by decide +kernel : ∀ t : Fin grid0.N, _)

/-! ## The arrays the host reshapes before the call -/

theorem V_graph (c : Dev nD) :
    (V m c main_v0 : S8x1x512.Idx → EReal) = shapeCast S8x1x512 (m ((c : Thread nD τ).loc main_arg2)) shapeCasts_S8x512_S8x1x512 := by
  show StableHlo.after hostOps0 (fun b => m (c, b)) (Proc.devRef .tc main_v0) = _
  after_results
  rfl
theorem V_locg (c : Dev nD) :
    (V m c main_v1 : S8x1x512.Idx → EReal) = shapeCast S8x1x512 (m ((c : Thread nD τ).loc main_arg3)) shapeCasts_S8x512_S8x1x512 := by
  show StableHlo.after hostOps0 (fun b => m (c, b)) (Proc.devRef .tc main_v1) = _
  after_results
  rfl
theorem V_bias1 (c : Dev nD) :
    (V m c main_v2 : S1x512.Idx → EReal) = shapeCast S1x512 (m ((c : Thread nD τ).loc main_arg5)) shapeCasts_S512_S1x512 := by
  show StableHlo.after hostOps0 (fun b => m (c, b)) (Proc.devRef .tc main_v2) = _
  after_results
  rfl
theorem V_bias2 (c : Dev nD) :
    (V m c main_v3 : S1x1.Idx → EReal) = shapeCast S1x1 (m ((c : Thread nD τ).loc main_arg7)) shapeCasts_S1_S1x1 := by
  show StableHlo.after hostOps0 (fun b => m (c, b)) (Proc.devRef .tc main_v3) = _
  after_results
  rfl

/-! ## The blocks a point loads, as rows of the arguments -/

theorem node_block (c : Dev nD) (t : Fin cfg0.N) (nl : Fin 64) (d : Fin 512) (b : Fin 8) (n : Fin 512)
    (hb : b.val = t.val / 8) (hn : n.val = t.val % 8 * 64 + nl.val) :
    iblk m c 0 t (ix3 (0 : Fin 1) nl d) = (m ((c : Thread nD τ).loc main_arg0)) (ix3 b n d) := by
  obtain ⟨e0, e1, e2⟩ := idx_node t
  show V m c main_arg0 (((cfg0.win 0).blk t).view.emb (ix3 (0 : Fin 1) nl d)) = _
  rw [V_main_arg0]
  refine congrArg _ (funext fun a => Fin.ext ?_)
  match a with
  | ⟨0, _⟩ => show win0_0.index t (0 : Fin 3) * 1 + 1 * 0 = b.val; omega
  | ⟨1, _⟩ => show win0_0.index t (1 : Fin 3) * 64 + 1 * nl.val = n.val; omega
  | ⟨2, _⟩ => show win0_0.index t (2 : Fin 3) * 512 + 1 * d.val = d.val; omega

theorem loc_block (c : Dev nD) (t : Fin cfg0.N) (nl : Fin 64) (k : Fin 16) (d : Fin 512) (b : Fin 8) (n : Fin 512)
    (hb : b.val = t.val / 8) (hn : n.val = t.val % 8 * 64 + nl.val) :
    iblk m c 1 t (ix4 (0 : Fin 1) nl k d) = (m ((c : Thread nD τ).loc main_arg1)) (ix4 b n k d) := by
  obtain ⟨e0, e1, e2, e3⟩ := idx_loc t
  show V m c main_arg1 (((cfg0.win 1).blk t).view.emb (ix4 (0 : Fin 1) nl k d)) = _
  rw [V_main_arg1]
  refine congrArg _ (funext fun a => Fin.ext ?_)
  match a with
  | ⟨0, _⟩ => show win0_1.index t (0 : Fin 4) * 1 + 1 * 0 = b.val; omega
  | ⟨1, _⟩ => show win0_1.index t (1 : Fin 4) * 64 + 1 * nl.val = n.val; omega
  | ⟨2, _⟩ => show win0_1.index t (2 : Fin 4) * 16 + 1 * k.val = k.val; omega
  | ⟨3, _⟩ => show win0_1.index t (3 : Fin 4) * 512 + 1 * d.val = d.val; omega

theorem graph_block (c : Dev nD) (t : Fin cfg0.N) (d : Fin 512) (b : Fin 8) (hb : b.val = t.val / 8) :
    iblk m c 2 t (ix3 (0 : Fin 1) (0 : Fin 1) d) = (m ((c : Thread nD τ).loc main_arg2)) (ix2 b d) := by
  obtain ⟨e0, e1, e2⟩ := idx_graph t
  show V m c main_v0 (((cfg0.win 2).blk t).view.emb (ix3 (0 : Fin 1) (0 : Fin 1) d)) = _
  rw [V_graph]
  refine shapeCast_apply _ _ _ (ix2 b d) ?_
  rw [Shape.rowMajor_val_two, Shape.rowMajor_val_three]
  show b.val * 512 + d.val = ((win0_2.index t (0 : Fin 3) * 1 + 1 * 0) * 1 + (win0_2.index t (1 : Fin 3) * 1 + 1 * 0)) * 512
    + (win0_2.index t (2 : Fin 3) * 512 + 1 * d.val)
  omega

theorem locg_block (c : Dev nD) (t : Fin cfg0.N) (d : Fin 512) (b : Fin 8) (hb : b.val = t.val / 8) :
    iblk m c 3 t (ix3 (0 : Fin 1) (0 : Fin 1) d) = (m ((c : Thread nD τ).loc main_arg3)) (ix2 b d) := by
  obtain ⟨e0, e1, e2⟩ := idx_locg t
  show V m c main_v1 (((cfg0.win 3).blk t).view.emb (ix3 (0 : Fin 1) (0 : Fin 1) d)) = _
  rw [V_locg]
  refine shapeCast_apply _ _ _ (ix2 b d) ?_
  rw [Shape.rowMajor_val_two, Shape.rowMajor_val_three]
  show b.val * 512 + d.val = ((win0_3.index t (0 : Fin 3) * 1 + 1 * 0) * 1 + (win0_3.index t (1 : Fin 3) * 1 + 1 * 0)) * 512
    + (win0_3.index t (2 : Fin 3) * 512 + 1 * d.val)
  omega

theorem weight1_block (c : Dev nD) (t : Fin cfg0.N) (i : S2048x512.Idx) : iblk m c 4 t i = (m ((c : Thread nD τ).loc main_arg4)) i := by
  obtain ⟨e0, e1, -⟩ := idx_params t
  show V m c main_arg4 (((cfg0.win 4).blk t).view.emb i) = _
  rw [V_main_arg4]
  refine congrArg _ (funext fun a => Fin.ext ?_)
  match a with
  | ⟨0, _⟩ => show win0_4.index t (0 : Fin 2) * 2048 + 1 * (i 0).val = (i 0).val; omega
  | ⟨1, _⟩ => show win0_4.index t (1 : Fin 2) * 512 + 1 * (i 1).val = (i 1).val; omega

theorem bias1_block (c : Dev nD) (t : Fin cfg0.N) (f : Fin 512) :
    iblk m c 5 t (ix2 (0 : Fin 1) f) = (m ((c : Thread nD τ).loc main_arg5)) (ix1 f) := by
  obtain ⟨-, -, e0, e1, -⟩ := idx_params t
  show V m c main_v2 (((cfg0.win 5).blk t).view.emb (ix2 (0 : Fin 1) f)) = _
  rw [V_bias1]
  refine shapeCast_apply _ _ _ (ix1 f) ?_
  rw [Shape.rowMajor_val_one, Shape.rowMajor_val_two]
  show f.val = (win0_5.index t (0 : Fin 2) * 1 + 1 * 0) * 512 + (win0_5.index t (1 : Fin 2) * 512 + 1 * f.val)
  omega

theorem weight2_block (c : Dev nD) (t : Fin cfg0.N) (f : Fin 512) :
    iblk m c 6 t (ix2 f (0 : Fin 1)) = (m ((c : Thread nD τ).loc main_arg6)) (ix2 f (0 : Fin 1)) := by
  obtain ⟨-, -, -, -, e0, e1, -⟩ := idx_params t
  show V m c main_arg6 (((cfg0.win 6).blk t).view.emb (ix2 f (0 : Fin 1))) = _
  rw [V_main_arg6]
  refine congrArg _ (funext fun a => Fin.ext ?_)
  match a with
  | ⟨0, _⟩ => show win0_6.index t (0 : Fin 2) * 512 + 1 * f.val = f.val; omega
  | ⟨1, _⟩ => show win0_6.index t (1 : Fin 2) * 1 + 1 * 0 = 0; omega

theorem bias2_block (c : Dev nD) (t : Fin cfg0.N) :
    iblk m c 7 t (ix2 (0 : Fin 1) (0 : Fin 1)) = (m ((c : Thread nD τ).loc main_arg7)) (ix1 (0 : Fin 1)) := by
  obtain ⟨-, -, -, -, -, -, e0, e1⟩ := idx_params t
  show V m c main_v3 (((cfg0.win 7).blk t).view.emb (ix2 (0 : Fin 1) (0 : Fin 1))) = _
  rw [V_bias2]
  refine shapeCast_apply _ _ _ (ix1 (0 : Fin 1)) ?_
  rw [Shape.rowMajor_val_one, Shape.rowMajor_val_two]
  show (0 : Nat) = (win0_7.index t (0 : Fin 2) * 1 + 1 * 0) * 1 + (win0_7.index t (1 : Fin 2) * 1 + 1 * 0)
  omega

/-! ## What a point writes back, the cover, and the array after the run -/

/-- WHAT POINT `t` WRITES BACK is block `t` of the score array. -/
theorem flushed_eq (c : Dev nD) (t : Fin cfg0.N) :
    (dats m 0 c).flushed 8 t = ((cfg0.win 8).blk t).view.read (Elt Ideal) (outArr m c) := by
  show (cfg0.win 8).cut (grid0.coords t) ((dats m 0 c).after 8 t) = _
  rw [after0_8]
  unfold out0_8
  rw [View.canon_unit_zero hz3]
  simp only [View.ld_unit_zero (S := S1x64x512) hz3, View.ld_unit_zero (S := S1x64x16x512) hz4,
    View.ld_unit_zero (S := S1x1x512) hz3, View.ld_unit_zero (S := S2048x512) hz2, View.ld_unit_zero (S := S1x512) hz2,
    View.ld_unit_zero (S := S512x1) hz2, View.ld_unit_zero (S := S1x1) hz2]
  have ht : t.val < 64 := lt_of_lt_of_eq t.isLt N_0
  obtain ⟨o0, o1, o2⟩ := idx_out t
  funext j
  obtain ⟨j0, j1, q, rfl⟩ : ∃ (j0 j1 : Fin 1) (q : Fin 1024), j = ix3 j0 j1 q := ⟨j 0, j 1, j 2, eq_ix3 j⟩
  obtain rfl : j0 = 0 := Subsingleton.elim _ _
  obtain rfl : j1 = 0 := Subsingleton.elim _ _
  have hq : q.val < 1024 := q.isLt
  refine (payload_score (iblk m c 0 t) (iblk m c 1 t) (iblk m c 2 t) (iblk m c 3 t) (iblk m c 4 t) (iblk m c 5 t)
    (iblk m c 6 t) (iblk m c 7 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (⟨t.val / 8, by omega⟩ : Fin 8) (⟨t.val % 8 * 64 + q.val / 16, by omega⟩ : Fin 512) (⟨q.val / 16, by omega⟩ : Fin 64)
    (⟨q.val % 16, Nat.mod_lt _ (by norm_num)⟩ : Fin 16) q (by show q.val = q.val / 16 * 16 + q.val % 16; omega)
    (fun d => node_block m c t _ d _ _ rfl rfl) (fun d => loc_block m c t _ _ d _ _ rfl rfl)
    (fun d => graph_block m c t d _ rfl) (fun d => locg_block m c t d _ rfl) (fun i => weight1_block m c t i)
    (fun f => bias1_block m c t f) (fun f => weight2_block m c t f) (bias2_block m c t)).trans ?_
  show argScore m c _ _ _ = outArr m c (((cfg0.win 8).blk t).view.emb (ix3 (0 : Fin 1) (0 : Fin 1) q))
  unfold outArr
  refine score_congr _ _ _ _ _ _ _ _ ?_ ?_ ?_
  · show t.val / 8 = win0_8.index t (0 : Fin 3) * 1 + 1 * 0; omega
  · show t.val % 8 * 64 + q.val / 16 = (win0_8.index t (2 : Fin 3) * 1024 + 1 * q.val) / 16; omega
  · show q.val % 16 = (win0_8.index t (2 : Fin 3) * 1024 + 1 * q.val) % 16; omega

/-- An index of the output is in point `t`'s block iff each coordinate is in the block's range on its axis. -/
theorem mem_blk (t : Fin cfg0.N) (i : S8x1x8192.Idx) :
    i ∈ ((cfg0.win 8).blk t).view.set ↔ ∀ a : Fin 3, win0_8.index t a * S1x1x1024.size a ≤ (i a).val
      ∧ (i a).val < win0_8.index t a * S1x1x1024.size a + S1x1x1024.size a := by
  show i ∈ ((View.whole main_v4).slice (win0_8.rect t)).set ↔ _
  rw [View.set_slice_whole, Rect.mem_set_unit]
  exact Iff.rfl

/-- The 64 output blocks tile the output: entry `(b, 0, j)` lies in the block of point `8 * b + j / 1024`. -/
theorem cover (i : S8x1x8192.Idx) : ∃ t : Fin cfg0.N, (cfg0.win 8).flush t = true ∧ i ∈ ((cfg0.win 8).blk t).view.set := by
  have h0 : (i 0).val < 8 := (i 0).isLt
  have h1 : (i 1).val < 1 := (i 1).isLt
  have h2 : (i 2).val < 8192 := (i 2).isLt
  have h64 := N_0
  refine ⟨⟨(i 0).val * 8 + (i 2).val / 1024, by show _ < grid0.N; omega⟩, flush0_8 _, ?_⟩
  obtain ⟨o0, o1, o2⟩ := idx_out ⟨(i 0).val * 8 + (i 2).val / 1024, by show _ < grid0.N; omega⟩
  have p0 : ((i 0).val * 8 + (i 2).val / 1024) / 8 = (i 0).val := by omega
  have p2 : ((i 0).val * 8 + (i 2).val / 1024) % 8 = (i 2).val / 1024 := by omega
  rw [mem_blk]
  intro a
  match a with
  | ⟨0, _⟩ =>
    show win0_8.index _ (0 : Fin 3) * 1 ≤ (i 0).val ∧ (i 0).val < win0_8.index _ (0 : Fin 3) * 1 + 1
    rw [o0]; show _ / 8 * 1 ≤ _ ∧ _ < _ / 8 * 1 + 1; rw [p0]; omega
  | ⟨1, _⟩ =>
    show win0_8.index _ (1 : Fin 3) * 1 ≤ (i 1).val ∧ (i 1).val < win0_8.index _ (1 : Fin 3) * 1 + 1
    rw [o1]; omega
  | ⟨2, _⟩ =>
    show win0_8.index _ (2 : Fin 3) * 1024 ≤ (i 2).val ∧ (i 2).val < win0_8.index _ (2 : Fin 3) * 1024 + 1024
    rw [o2]; show _ % 8 * 1024 ≤ _ ∧ _ < _ % 8 * 1024 + 1024; rw [p2]; omega

/-- THE OUTPUT ARRAY after the run is the score array. -/
theorem final (c : Dev nD) : (dats m 0 c).arrAt 8 cfg0.N = outArr m c :=
  (dats m 0 c).arrAt_eq_of_cover 8 (outArr m c) (fun t _ => flushed_eq m c t) (cover)

/-! ## The reshape after the call, and the run -/

/-- The result buffer after the host's last reshape: the array of scores. -/
theorem tail_eq (c : Dev nD) :
    Pipeline.afterTail₀ cfgs (dats m) 0 (V0 m) [hostOps1] c main_v5
      = scores (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold Pipeline.afterTail₀
  show StableHlo.after hostOps1 _ (Proc.devRef .tc main_v5) = _
  after_results
  rw [(Pipeline.withArrays_arr spec0 launch0.win.arr_inj c _ _ 8).trans (final m c)]
  funext i
  obtain ⟨b, j, rfl⟩ : ∃ (b : Fin 8) (j : Fin 8192), i = ix2 b j := ⟨i 0, i 1, eq_ix2 i⟩
  refine (shapeCast_apply _ _ (ix2 b j) (ix3 b (0 : Fin 1) j) ?_).trans ?_
  · rw [Shape.rowMajor_val_three, Shape.rowMajor_val_two]
    show (b.val * 1 + 0) * 8192 + j.val = b.val * 8192 + j.val
    omega
  rfl

/-- THE KERNEL'S RUN: every weakly fair execution terminates with the result buffer at the array of scores and the
    arguments unchanged. -/
theorem run : θ_run (defs (F := Ideal)) (onTc (τ := τ) (main (F := Ideal))) ⟨m, fun _ => 0, ρ⟩ fun r => ∀ c : Dev nD,
      r.2.mem ((c.tc : Thread nD τ).loc main_v5) = scores (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v5 (Pipeline.mem_restRefs_of main_v5 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c))),
      ((h c).2 main_arg7 (Pipeline.mem_restRefs_of main_arg7 (by decide) (by decide))).trans (W_main_arg7 m (dats m) c)⟩)
    (run_main m ρ)

end Cert.JointScore.KernelRun

end
-- ==== Proof.lean ====
/-
  A tiled scoring network against its array-level reference: the five claims.

  Both programs compute, for every batch `b`, node `n` and location `k`, the score

      ∑ f, max (h b n k f) 0 * W2 (f, 0) + b2 0,

  where `h b n k f` is the sum of four inner products of length 512 — the node's embedding, the batch's graph context,
  the batch's location context and the location's embedding, each against its own block of 512 rows of the stacked
  weight `W1` — and the bias `b1 f` (ScoreSpec).  The reference forms the five addends as whole arrays and adds
  them left to right (ReferenceScore, over the reference's run read stage by stage).  The kernel works on tiles of 64
  nodes over an 8 × 8 grid, adds the location's inner product to the sum of the other four, and writes one row of 1024
  scores per point (KernelBlock, KernelScores, over the generated frame run).  On the extended reals addition is
  commutative and associative with no side condition, the changes of float format inside the kernel are the identity,
  and every matrix product starts from zero, so the two results are the same array whatever the inputs hold: the
  finiteness of the inputs is not used.  No operation of the kernel is replaced in its reading over the extended reals,
  so that claim is the true proposition.
-/
import proofs.«180585_j90701119357586_1_alg».proof.Defs
import proofs.«180585_j90701119357586_1_alg».proof.Proof.Gen.Kernel
import proofs.«180585_j90701119357586_1_alg».proof.Proof.Gen.Kernel.Frame
import proofs.«180585_j90701119357586_1_alg».proof.Proof.Gen.KernelIdeal
import proofs.«180585_j90701119357586_1_alg».proof.Proof.Gen.KernelIdeal.Frame
import proofs.«180585_j90701119357586_1_alg».proof.Proof.Gen.ReferenceIdeal
import proofs.«180585_j90701119357586_1_alg».proof.Proof.Gen.ReferenceIdeal.Run
import proofs.«180585_j90701119357586_1_alg».proof.Proof.Gen.ReferenceIdeal.Read
import proofs.«180585_j90701119357586_1_alg».proof.Proof.Gen.Pre_finite_inputs
import proofs.«180585_j90701119357586_1_alg».proof.Proof.ScoreSpec
import proofs.«180585_j90701119357586_1_alg».proof.Proof.ReferenceScore
import proofs.«180585_j90701119357586_1_alg».proof.Proof.KernelScores
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From memories that agree on the arguments, both programs end with the array of scores. -/
theorem algebraic : Cert.algebraic_KernelIdeal_ReferenceIdeal := by
  intro m ρ m' ρ' _ hagree
  refine ⟨fun c => Cert.JointScore.scores
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.JointScore.KernelRun.run m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5, a6, a7⟩ := hagree c
  rw [(h c).1, Cert.ReferenceIdeal.Read.val_main_v26_eq, Cert.JointScore.Reference.scores_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
